-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S131072 : Shape := ⟨1, ![131072]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x4096x4096 .f32) (main_arg1 : FVec F S4096x4096 .f32) (main_arg2 : FVec F S131072 .f32) (main_arg3 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x4096x4096 : Shape := ⟨3, ![2, 4096, 4096]⟩
abbrev S4096x4096 : Shape := ⟨2, ![4096, 4096]⟩
abbrev S131072 : Shape := ⟨1, ![131072]⟩
abbrev S4096 : Shape := ⟨1, ![4096]⟩
abbrev S8192x4096 : Shape := ⟨2, ![8192, 4096]⟩
abbrev S4096x32 : Shape := ⟨2, ![4096, 32]⟩
abbrev S4096x32x128 : Shape := ⟨3, ![4096, 32, 128]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S131072, .f32⟩
  | .hbm, ⟨3, _⟩ => ⟨S4096, .f32⟩
  | .hbm, ⟨4, _⟩ => ⟨S8192x4096, .f32⟩
  | .hbm, ⟨5, _⟩ => ⟨S4096x32, .f32⟩
  | .hbm, ⟨6, _⟩ => ⟨S4096x32x128, .f32⟩
  | .hbm, ⟨7, _⟩ => ⟨S4096x4096, .f32⟩
  | .hbm, ⟨8, _⟩ => ⟨S1x4096, .f32⟩
  | .hbm, ⟨9, _⟩ => ⟨S8192x4096, .f32⟩
  | .hbm, ⟨10, _⟩ => ⟨S2x4096x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v17 : BitVec 1 := Scalar.cmpi .eq arg2 c15_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  shapeCasts_S131072_S4096x32 : S131072.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S2x4096x4096 : S8192x4096.ShapeCasts S2x4096x4096
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S131072 : Shape := ⟨1, ![131072]⟩
abbrev S4096 : Shape := ⟨1, ![4096]⟩
abbrev S131072x128 : Shape := ⟨2, ![131072, 128]⟩
abbrev S131072x1 : Shape := ⟨2, ![131072, 1]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S131072, .f32⟩
  | .hbm, ⟨3, _⟩ => ⟨S4096, .f32⟩
  | .hbm, ⟨4, _⟩ => ⟨S131072x128, .f32⟩
  | .hbm, ⟨5, _⟩ => ⟨S131072x1, .f32⟩
  | .hbm, ⟨6, _⟩ => ⟨S131072x128, .f32⟩
  | .hbm, ⟨7, _⟩ => ⟨S131072x128, .f32⟩
  | .hbm, ⟨8, _⟩ => ⟨S4096x4096, .f32⟩
  | .hbm, ⟨9, _⟩ => ⟨S2x4096x4096, .f32⟩
  | .hbm, ⟨10, _⟩ => ⟨S1x1x4096, .f32⟩
  | .hbm, ⟨11, _⟩ => ⟨S2x4096x4096, .f32⟩
  | .hbm, ⟨12, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S4096x4096_S131072x128 : S4096x4096.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.Pieces.lean ====
/-
  What one grid point leaves behind, as values.

  The kernel body keeps a running total in a scratch block of shape [2048, 1024]. At a point whose tile index along
  the contraction axis is 0 it first clears the total, at every point it adds the tile's product to it, and at the
  point of the last tile it also writes the total plus the bias row to the output block. Each of these is one store
  covering the whole block, so what the block holds afterwards is that store's value: the accumulation step applied
  to the cleared block (first tile), to what the previous point left (later tiles), and the bias step applied to the
  new total (last tile).
-/
import proofs.«123864_j11441792877192_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Tile

open Cert.KernelIdeal Cert.KernelIdeal.Gen

variable {F : FTy → Type} [FloatOps F]

theorem hz : (![0, 0] : Fin 2 → Nat) = fun _ => 0 := funext fun a => by fin_cases a <;> rfl

/-- First tile: the total is cleared and the tile's product added to the cleared block. -/
theorem total_first (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i)
    (x0 : Vec F S2048x256 .f32) (x1 : Vec F S1024x256 .f32) (x2 : Vec F S1024x256 .f32) (x3 : Vec F S1x1024 .f32) :
    sout0_A_0 c i arg3 harg3 arg4 harg4 arg5 harg5 arg6 harg6 arg7 harg7 arg8 harg8 hc0 hc1 x0 x1 x2 x3 = k0_pay2 x1 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz, View.readCov_unit_zero (S := S2048x1024) _ hz]

/-- A middle tile: the tile's product is added to what the previous point left. -/
theorem total_middle (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i)
    (x0 : Vec F S2048x256 .f32) (x1 : Vec F S1024x256 .f32) (x2 : Vec F S1024x256 .f32) (x3 : Vec F S1x1024 .f32) (xs0 : Vec F S2048x1024 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz, View.readCov_unit_zero (S := S2048x1024) _ hz]

/-- The last tile: the total is updated in the same way, -/
theorem total_last (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x256 .f32) (x1 : Vec F S1024x256 .f32) (x2 : Vec F S1024x256 .f32) (x3 : Vec F S1x1024 .f32) (xs0 : Vec F S2048x1024 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz, View.readCov_unit_zero (S := S2048x1024) _ hz]

/-- and the output block receives the new total plus the bias row. -/
theorem output_last (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x256 .f32) (x1 : Vec F S1024x256 .f32) (x2 : Vec F S1024x256 .f32) (x3 : Vec F S1x1024 .f32) (xs0 : Vec F S2048x1024 .f32) :
    out0_C_4 c i arg3 harg3 arg4 harg4 arg5 harg5 arg6 harg6 arg7 harg7 arg8 harg8 hc0 hc1 x0 x1 x2 x3 xs0 = k0_pay3 (k0_pay2 x1 x2 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz, View.readCov_unit_zero (S := S2048x1024) _ hz]

end Cert.KernelIdeal.Tile

end
-- ==== Proof.Payload.lean ====
/-
  The body's arithmetic at one entry, over the extended reals.

  The accumulation step adds, to the running total at entry (p, q) of the [2048, 1024] block, the sum over the tile's
  256 positions j of x(p, j) · (w(q, j) · s(q, j)): the dequantised weight is the stored weight times its block scale,
  the two narrowings to bf16 are the identity on extended reals, and the matrix product into a zero block is the
  plain sum over the contracted position. The bias step adds the bias row's entry q. The cleared block is zero.
-/
import proofs.«123864_j11441792877192_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

/-! The operand indices of the product at output entry `i` and contraction position `q`: the left operand is read
    at (row of `i`, position), the right operand at (column of `i`, position). -/

theorem lhs_tile_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_tile_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhs_tile_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_tile_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The tile's product into a zero block, at entry (p, q): the sum over the 256 positions. -/
theorem tile_product_apply (a : FVec Ideal S2048x256 .bf16) (b : FVec Ideal S1024x256 .bf16) (p : Fin 2048) (q : Fin 1024) :
    matmul dot_S2048x256_S1024x256_S2048x1024_1_1_0_0_n_n none a b (constant (F := Ideal) S2048x1024 .f32 0x00000000#32) (ix2 p q)
      = ∑ j : Fin 256, a (ix2 p j) * b (ix2 q j) := by
  show FloatOps.matmul dot_S2048x256_S1024x256_S2048x1024_1_1_0_0_n_n none a b (constant (F := Ideal) S2048x1024 .f32 0x00000000#32) (ix2 p q) = _
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 p q) ((ValueIdx.contrEquiv1 dot_S2048x256_S1024x256_S2048x1024_1_1_0_0_n_n 256 rfl rfl).symm k) = ix2 p k := funext fun a => Fin.ext (by
    match a with
    | ⟨0, _⟩ => exact lhs_tile_0 _ _
    | ⟨1, _⟩ => exact (lhs_tile_1 _ _).trans hk)
  have er : dot_S2048x256_S1024x256_S2048x1024_1_1_0_0_n_n.rhsIdx (ix2 p q) ((ValueIdx.contrEquiv1 dot_S2048x256_S1024x256_S2048x1024_1_1_0_0_n_n 256 rfl rfl).symm k) = ix2 q k := funext fun a => Fin.ext (by
    match a with
    | ⟨0, _⟩ => exact rhs_tile_0 _ _
    | ⟨1, _⟩ => exact (rhs_tile_1 _ _).trans hk)
  rw [el, er]

/-- The accumulation step at entry (p, q). -/
theorem accumulate_apply (w s : Vec Ideal S1024x256 .f32) (x : Vec Ideal S2048x256 .f32) (acc : Vec Ideal S2048x1024 .f32)
    (p : Fin 2048) (q : Fin 1024) :
    k0_pay2 (F := Ideal) w s x acc (ix2 p q) = acc (ix2 p q) + ∑ j : Fin 256, x (ix2 p j) * (w (ix2 q j) * s (ix2 q j)) := by
  unfold k0_pay2
  simp only [shapeCast_self]
  refine (addf_apply _ _ _).trans ?_
  refine congrArg (acc (ix2 p q) + ·) ?_
  exact tile_product_apply _ _ p q

/-- The bias step at entry (p, q). -/
theorem add_bias_apply (acc : Vec Ideal S2048x1024 .f32) (b : Vec Ideal S1x1024 .f32) (p : Fin 2048) (q : Fin 1024) :
    k0_pay3 (F := Ideal) acc b (ix2 p q) = acc (ix2 p q) + b (ix2 (0 : Fin 1) q) := by
  unfold k0_pay3
  simp only [shapeCast_self]
  refine (addf_apply _ _ _).trans ?_
  refine congrArg (acc (ix2 p q) + ·) ?_
  exact broadcastTo_apply b broadcasts_S1x1024_S2048x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-- The cleared block is zero everywhere. -/
theorem cleared_apply (i : S2048x1024.Idx) : k0_pay1 (F := Ideal) i = 0 := by
  unfold k0_pay1
  simp only [shapeCast_self]
  show Ideal.ofBits .f32 0x00000000#32 = 0
  exact Ideal.ofBits_zero_f32

end Cert.KernelIdeal.Tile

end
-- ==== Proof.Spec.lean ====
/-
  The function both programs compute: a linear layer whose weight is stored with one scale per block of 128.

  For an activation x of shape [2, 4096, 4096], a stored weight wq of shape [4096, 4096], one scale per consecutive
  block of 128 stored weights (131072 scales: row n, position k of the weight lies in block 32·n + k / 128) and a
  bias of length 4096, the result at (b, s, n) is

      ∑ₖ x(b, s, k) · (wq(n, k) · scale(32·n + k / 128))  +  bias(n)

  over the extended reals. The same function is also written over the activation flattened to [8192, 4096] rows, the
  scales already spread to the weight's shape and the bias as a [1, 4096] row, which is the form the tiled
  computation produces; the two agree entry by entry.
-/
import Idealize.ShloMosaic.Lib.ValueIdx

noncomputable section

open Idealize.ShloMosaic Idealize.ShloMosaic.ValueIdx
open scoped BigOperators

namespace Cert.BlockScaledLinear

/-- Row `p` of row block `mi` (blocks of 2048 rows). -/
def rowIdx (mi : Fin 4) (p : Fin 2048) : Fin 8192 := ⟨2048 * mi.val + p.val, by have := mi.isLt; have := p.isLt; omega⟩
/-- Column `q` of column block `ni` (blocks of 1024 columns). -/
def colIdx (ni : Fin 4) (q : Fin 1024) : Fin 4096 := ⟨1024 * ni.val + q.val, by have := ni.isLt; have := q.isLt; omega⟩
/-- Position `j` of tile `a` of the contracted axis (tiles of 256). -/
def posIdx (a : Fin 16) (j : Fin 256) : Fin 4096 := ⟨256 * a.val + j.val, by have := a.isLt; have := j.isLt; omega⟩
/-- The scale block of weight entry (n, k). -/
def scaleIdx (n k : Fin 4096) : Fin 131072 := ⟨n.val * 32 + k.val / 128, by have := n.isLt; have := k.isLt; omega⟩
/-- Row (b, s) of the activation, flattened. -/
def flatRow (b : Fin 2) (s : Fin 4096) : Fin 8192 := ⟨b.val * 4096 + s.val, by have := b.isLt; have := s.isLt; omega⟩

/-- One term of the contraction for output row `r` and column `n`. -/
def term (X : (⟨2, ![8192, 4096]⟩ : Shape).Idx → EReal) (W S : (⟨2, ![4096, 4096]⟩ : Shape).Idx → EReal)
    (r : Fin 8192) (n : Fin 4096) (k : Fin 4096) : EReal :=
  X (ix2 r k) * (W (ix2 n k) * S (ix2 n k))

/-- The layer over flattened rows, with the scales spread to the weight's shape and the bias as a row. -/
def linearRows (X : (⟨2, ![8192, 4096]⟩ : Shape).Idx → EReal) (W S : (⟨2, ![4096, 4096]⟩ : Shape).Idx → EReal)
    (B : (⟨2, ![1, 4096]⟩ : Shape).Idx → EReal) : (⟨2, ![8192, 4096]⟩ : Shape).Idx → EReal :=
  fun i => (∑ k : Fin 4096, term X W S (i 0) (i 1) k) + B (ix2 (0 : Fin 1) (i 1))

/-- The layer as a function of the four arguments. -/
def blockScaledLinear (x : (⟨3, ![2, 4096, 4096]⟩ : Shape).Idx → EReal) (wq : (⟨2, ![4096, 4096]⟩ : Shape).Idx → EReal)
    (sc : (⟨1, ![131072]⟩ : Shape).Idx → EReal) (b : (⟨1, ![4096]⟩ : Shape).Idx → EReal) :
    (⟨3, ![2, 4096, 4096]⟩ : Shape).Idx → EReal :=
  fun i => (∑ k : Fin 4096, x (ix3 (i 0) (i 1) k) * (wq (ix2 (i 2) k) * sc (ix1 (scaleIdx (i 2) k)))) + b (ix1 (i 2))

/-- The two forms agree when the flattened activation, the spread scales and the bias row are read from the arguments. -/
theorem linearRows_eq (X : (⟨2, ![8192, 4096]⟩ : Shape).Idx → EReal) (W S : (⟨2, ![4096, 4096]⟩ : Shape).Idx → EReal)
    (B : (⟨2, ![1, 4096]⟩ : Shape).Idx → EReal)
    (x : (⟨3, ![2, 4096, 4096]⟩ : Shape).Idx → EReal) (sc : (⟨1, ![131072]⟩ : Shape).Idx → EReal) (b : (⟨1, ![4096]⟩ : Shape).Idx → EReal)
    (hX : ∀ (bb : Fin 2) (s k : Fin 4096), X (ix2 (flatRow bb s) k) = x (ix3 bb s k))
    (hS : ∀ n k : Fin 4096, S (ix2 n k) = sc (ix1 (scaleIdx n k)))
    (hB : ∀ n : Fin 4096, B (ix2 (0 : Fin 1) n) = b (ix1 n))
    (bb : Fin 2) (s n : Fin 4096) :
    linearRows X W S B (ix2 (flatRow bb s) n) = blockScaledLinear x W sc b (ix3 bb s n) := by
  show (∑ k : Fin 4096, term X W S (flatRow bb s) n k) + B (ix2 (0 : Fin 1) n)
    = (∑ k : Fin 4096, x (ix3 bb s k) * (W (ix2 n k) * sc (ix1 (scaleIdx n k)))) + b (ix1 n)
  rw [hB]
  refine congrArg (· + b (ix1 n)) (Finset.sum_congr rfl fun k _ => ?_)
  unfold term
  rw [hX, hS]

end Cert.BlockScaledLinear

end
-- ==== Proof.Blocks.lean ====
/-
  The arrays the tiled computation reads, and the blocks it reads them through.

  Before the tiled computation the activation is flattened to [8192, 4096] rows, each scale is spread over the 128
  weight entries of its block (so the scales take the weight's shape [4096, 4096]) and the bias becomes a [1, 4096]
  row. Grid point t = (mi·4 + ni)·16 + a works on row block mi, column block ni and tile a of the contracted axis:
  its activation block is rows 2048·mi … of positions 256·a …, its weight and scale blocks are rows 1024·ni … of the
  same positions, and its bias block is columns 1024·ni … of the bias row.
-/
import proofs.«123864_j11441792877192_1_alg».proof.Proof.Gen.KernelIdeal.Frame
import proofs.«123864_j11441792877192_1_alg».proof.Proof.Spec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Tile

open Cert.KernelIdeal Cert.KernelIdeal.Gen Cert.BlockScaledLinear

variable {F : FTy → Type} [FloatOps F]
variable (m : (ℓ : Loc nD τ sig) → Buf (Elt F) ℓ)

/-- The flattened activation, the stored weight, the spread scales and the bias row, as the tiled computation finds them. -/
abbrev xArr (c : Dev nD) : Vec F S8192x4096 .f32 := V m c main_v0
abbrev wArr (c : Dev nD) : Vec F S4096x4096 .f32 := V m c main_arg1
abbrev sArr (c : Dev nD) : Vec F S4096x4096 .f32 := V m c main_v3
abbrev bArr (c : Dev nD) : Vec F S1x4096 .f32 := V m c main_v4
/-- Their blocks at grid point `t`. -/
abbrev xBlk (c : Dev nD) (t : Fin cfg0.N) : Vec F S2048x256 .f32 := iblk m c 0 t
abbrev wBlk (c : Dev nD) (t : Fin cfg0.N) : Vec F S1024x256 .f32 := iblk m c 1 t
abbrev sBlk (c : Dev nD) (t : Fin cfg0.N) : Vec F S1024x256 .f32 := iblk m c 2 t
abbrev bBlk (c : Dev nD) (t : Fin cfg0.N) : Vec F S1x1024 .f32 := iblk m c 3 t

/-- Which block of each array a grid point works on, from the point's position in the grid's row-major order. -/
theorem block_index : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = t.val % 16
    ∧ win0_3.index t (0 : Fin 2) = 0 ∧ win0_3.index t (1 : Fin 2) = t.val / 16 % 4
    ∧ win0_4.index t (0 : Fin 2) = t.val / 64 ∧ win0_4.index t (1 : Fin 2) = t.val / 16 % 4 :=
  (by decide +kernel : ∀ t : Fin grid0.N, _)

/-! ## Blocks read at an entry -/

theorem xBlk_apply (c : Dev nD) (t : Fin cfg0.N) (mi ni : Fin 4) (a : Fin 16) (ht : t.val = (mi.val * 4 + ni.val) * 16 + a.val)
    (p : Fin 2048) (j : Fin 256) :
    xBlk m c t (ix2 p j) = xArr m c (ix2 (rowIdx mi p) (posIdx a j)) := by
  obtain ⟨e0, e1, -⟩ := block_index t
  show iblk m c 0 t (ix2 p j) = _
  unfold iblk
  rw [View.read_apply]
  show V m c main_v0 _ = V m c main_v0 _
  congr 1
  funext d; apply Fin.ext
  have := mi.isLt; have := ni.isLt; have := a.isLt
  match d with
  | ⟨0, _⟩ => show win0_0.index t (0 : Fin 2) * 2048 + 1 * p.val = 2048 * mi.val + p.val; rw [e0]; omega
  | ⟨1, _⟩ => show win0_0.index t (1 : Fin 2) * 256 + 1 * j.val = 256 * a.val + j.val; rw [e1]; omega

theorem wBlk_apply (c : Dev nD) (t : Fin cfg0.N) (mi ni : Fin 4) (a : Fin 16) (ht : t.val = (mi.val * 4 + ni.val) * 16 + a.val)
    (q : Fin 1024) (j : Fin 256) :
    wBlk m c t (ix2 q j) = wArr m c (ix2 (colIdx ni q) (posIdx a j)) := by
  obtain ⟨-, -, e0, e1, -⟩ := block_index t
  show iblk m c 1 t (ix2 q j) = _
  unfold iblk
  rw [View.read_apply]
  show V m c main_arg1 _ = V m c main_arg1 _
  congr 1
  funext d; apply Fin.ext
  have := mi.isLt; have := ni.isLt; have := a.isLt
  match d with
  | ⟨0, _⟩ => show win0_1.index t (0 : Fin 2) * 1024 + 1 * q.val = 1024 * ni.val + q.val; rw [e0]; omega
  | ⟨1, _⟩ => show win0_1.index t (1 : Fin 2) * 256 + 1 * j.val = 256 * a.val + j.val; rw [e1]; omega

theorem sBlk_apply (c : Dev nD) (t : Fin cfg0.N) (mi ni : Fin 4) (a : Fin 16) (ht : t.val = (mi.val * 4 + ni.val) * 16 + a.val)
    (q : Fin 1024) (j : Fin 256) :
    sBlk m c t (ix2 q j) = sArr m c (ix2 (colIdx ni q) (posIdx a j)) := by
  obtain ⟨-, -, -, -, e0, e1, -⟩ := block_index t
  show iblk m c 2 t (ix2 q j) = _
  unfold iblk
  rw [View.read_apply]
  show V m c main_v3 _ = V m c main_v3 _
  congr 1
  funext d; apply Fin.ext
  have := mi.isLt; have := ni.isLt; have := a.isLt
  match d with
  | ⟨0, _⟩ => show win0_2.index t (0 : Fin 2) * 1024 + 1 * q.val = 1024 * ni.val + q.val; rw [e0]; omega
  | ⟨1, _⟩ => show win0_2.index t (1 : Fin 2) * 256 + 1 * j.val = 256 * a.val + j.val; rw [e1]; omega

theorem bBlk_apply (c : Dev nD) (t : Fin cfg0.N) (mi ni : Fin 4) (a : Fin 16) (ht : t.val = (mi.val * 4 + ni.val) * 16 + a.val)
    (q : Fin 1024) :
    bBlk m c t (ix2 (0 : Fin 1) q) = bArr m c (ix2 (0 : Fin 1) (colIdx ni q)) := by
  obtain ⟨-, -, -, -, -, -, e0, e1, -⟩ := block_index t
  show iblk m c 3 t (ix2 (0 : Fin 1) q) = _
  unfold iblk
  rw [View.read_apply]
  show V m c main_v4 _ = V m c main_v4 _
  congr 1
  funext d; apply Fin.ext
  have := mi.isLt; have := ni.isLt; have := a.isLt
  match d with
  | ⟨0, _⟩ => show win0_3.index t (0 : Fin 2) * 1 + 1 * 0 = 0; rw [e0]
  | ⟨1, _⟩ => show win0_3.index t (1 : Fin 2) * 1024 + 1 * q.val = 1024 * ni.val + q.val; rw [e1]; omega

/-! ## The arrays, from the arguments -/

theorem xArr_eq (c : Dev nD) :
    xArr m c = shapeCast S8192x4096 (m ((c : Thread nD τ).loc main_arg0)) shapeCasts_S2x4096x4096_S8192x4096 := by
  show StableHlo.after hostOps0 (fun b => m (c, b)) (Proc.devRef .tc main_v0) = _
  after_results; rfl

theorem sArr_eq (c : Dev nD) :
    sArr m c = shapeCast S4096x4096 (broadcastInDim S4096x32x128 ![0, 1] bcast_S4096x32_S4096x32x128_0_1
      (shapeCast S4096x32 (m ((c : Thread nD τ).loc main_arg2)) shapeCasts_S131072_S4096x32)) shapeCasts_S4096x32x128_S4096x4096 := by
  show StableHlo.after hostOps0 (fun b => m (c, b)) (Proc.devRef .tc main_v3) = _
  after_results; rfl

theorem bArr_eq (c : Dev nD) :
    bArr m c = shapeCast S1x4096 (m ((c : Thread nD τ).loc main_arg3)) shapeCasts_S4096_S1x4096 := by
  show StableHlo.after hostOps0 (fun b => m (c, b)) (Proc.devRef .tc main_v4) = _
  after_results; rfl

theorem wArr_eq (c : Dev nD) : wArr m c = m ((c : Thread nD τ).loc main_arg1) := V_main_arg1 m c

/-- The flattened activation at row (b, s) is the activation at (b, s). -/
theorem xArr_apply (c : Dev nD) (bb : Fin 2) (s k : Fin 4096) :
    xArr m c (ix2 (flatRow bb s) k) = m ((c : Thread nD τ).loc main_arg0) (ix3 bb s k) := by
  refine (congrFun (xArr_eq m c) _).trans ?_
  exact shapeCast_apply _ shapeCasts_S2x4096x4096_S8192x4096 (ix2 (flatRow bb s) k) (ix3 bb s k)
    (by rewrite [Shape.rowMajor_val_three, Shape.rowMajor_val_two]
        show (bb.val * 4096 + s.val) * 4096 + k.val = (bb.val * 4096 + s.val) * 4096 + k.val
        rfl)

/-- The spread scales at weight entry (n, k) are the scale of that entry's block. -/
theorem sArr_apply (c : Dev nD) (n k : Fin 4096) :
    sArr m c (ix2 n k) = m ((c : Thread nD τ).loc main_arg2) (ix1 (scaleIdx n k)) := by
  have hn := n.isLt; have hk := k.isLt
  refine (congrFun (sArr_eq m c) _).trans ?_
  refine (shapeCast_apply _ shapeCasts_S4096x32x128_S4096x4096 (ix2 n k)
    (ix3 n (⟨k.val / 128, by omega⟩ : Fin 32) (⟨k.val % 128, by omega⟩ : Fin 128))
    (by rewrite [Shape.rowMajor_val_three, Shape.rowMajor_val_two]
        show (n.val * 32 + k.val / 128) * 128 + k.val % 128 = n.val * 4096 + k.val
        omega)).trans ?_
  refine (broadcastInDim_apply _ bcast_S4096x32_S4096x32x128_0_1 _ _ (ix2 n (⟨k.val / 128, by omega⟩ : Fin 32)) (fun d => match d with
    | ⟨0, _⟩ => by show n.val = if (4096 : Nat) = 1 then 0 else n.val; rw [if_neg (by decide)]
    | ⟨1, _⟩ => by show k.val / 128 = if (32 : Nat) = 1 then 0 else k.val / 128; rw [if_neg (by decide)])).trans ?_
  exact shapeCast_apply _ shapeCasts_S131072_S4096x32 _ (ix1 (scaleIdx n k))
    (by rewrite [Shape.rowMajor_val_one, Shape.rowMajor_val_two]
        show n.val * 32 + k.val / 128 = n.val * 32 + k.val / 128
        rfl)

/-- The bias row at column n is the bias at n. -/
theorem bArr_apply (c : Dev nD) (n : Fin 4096) :
    bArr m c (ix2 (0 : Fin 1) n) = m ((c : Thread nD τ).loc main_arg3) (ix1 n) := by
  refine (congrFun (bArr_eq m c) _).trans ?_
  exact shapeCast_apply _ shapeCasts_S4096_S1x4096 (ix2 (0 : Fin 1) n) (ix1 n)
    (by rewrite [Shape.rowMajor_val_one, Shape.rowMajor_val_two]
        show n.val = 0 * 4096 + n.val
        omega)

end Cert.KernelIdeal.Tile

end
-- ==== Proof.Steps.lean ====
/-
  The running total from one grid point to the next, entry by entry, over the extended reals.

  At a point working on the first tile of the contracted axis the total at entry (p, q) becomes 0 plus the tile's
  sum ∑ⱼ x(p, j) · (w(q, j) · s(q, j)) over the point's blocks; at every other point it becomes what the point
  before left plus the tile's sum; and at a point working on the last tile the output block receives the new total
  plus the bias block's entry q.
-/
import proofs.«123864_j11441792877192_1_alg».proof.Proof.Pieces
import proofs.«123864_j11441792877192_1_alg».proof.Proof.Payload
import proofs.«123864_j11441792877192_1_alg».proof.Proof.Blocks

set_option maxRecDepth 16384

noncomputable section

open Idealize.ShloMosaic Idealize.ShloMosaic.TcCoe Idealize.SL.Sem Idealize.ShloMosaic.ValueIdx
open scoped BigOperators

namespace Cert.KernelIdeal.Tile

open Cert.KernelIdeal Cert.KernelIdeal.Gen

variable (m : (ℓ : Loc nD τ sig) → Buf (Elt Ideal) ℓ)

/-- A point on the first tile: the total restarts from zero. -/
theorem total_at_first (c : Dev nD) (t : Fin cfg0.N) (h0 : t.val % 16 = 0) (p : Fin 2048) (q : Fin 1024) :
    (outsAt0 m c t.val t.isLt).2 (ix2 p q)
      = 0 + ∑ j : Fin 256, xBlk m c t (ix2 p j) * (wBlk m c t (ix2 q j) * sBlk m c t (ix2 q j)) := by
  have h1 : ¬t.val % 16 = 15 := by omega
  rw [outsAt0_A m c t h0 h1]
  dsimp only
  refine (congrFun (total_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xBlk m c t) (wBlk m c t) (sBlk m c t) (bBlk m c t)) (ix2 p q)).trans ?_
  rw [accumulate_apply, cleared_apply]

/-- A point on a later tile: the total grows by the tile's sum. -/
theorem total_at_next (c : Dev nD) (t : Fin cfg0.N) (h0 : ¬t.val % 16 = 0) (p : Fin 2048) (q : Fin 1024) :
    (outsAt0 m c t.val t.isLt).2 (ix2 p q)
      = ((outsAt0 m c (t.val - 1) (Nat.lt_of_le_of_lt (Nat.sub_le _ _) t.isLt)).2) (ix2 p q)
        + ∑ j : Fin 256, xBlk m c t (ix2 p j) * (wBlk m c t (ix2 q j) * sBlk m c t (ix2 q j)) := by
  by_cases h1 : t.val % 16 = 15
  · rw [outsAt0_C m c t h0 h1]
    dsimp only
    refine (congrFun (total_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk m c t) (wBlk m c t) (sBlk m c t) (bBlk m c t) ((outsAt0 m c (t.val - 1) (Nat.lt_of_le_of_lt (Nat.sub_le _ _) t.isLt)).2)) (ix2 p q)).trans ?_
    exact accumulate_apply _ _ _ _ p q
  · rw [outsAt0_B m c t h0 h1]
    dsimp only
    refine (congrFun (total_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xBlk m c t) (wBlk m c t) (sBlk m c t) (bBlk m c t) ((outsAt0 m c (t.val - 1) (Nat.lt_of_le_of_lt (Nat.sub_le _ _) t.isLt)).2)) (ix2 p q)).trans ?_
    exact accumulate_apply _ _ _ _ p q

/-- A point on the last tile: the output block receives the new total plus the bias. -/
theorem output_at_last (c : Dev nD) (t : Fin cfg0.N) (h1 : t.val % 16 = 15) (p : Fin 2048) (q : Fin 1024) :
    (outsAt0 m c t.val t.isLt).1 (ix2 p q)
      = (((outsAt0 m c (t.val - 1) (Nat.lt_of_le_of_lt (Nat.sub_le _ _) t.isLt)).2) (ix2 p q)
        + ∑ j : Fin 256, xBlk m c t (ix2 p j) * (wBlk m c t (ix2 q j) * sBlk m c t (ix2 q j)))
        + bBlk m c t (ix2 (0 : Fin 1) q) := by
  have h0 : ¬t.val % 16 = 0 := by omega
  rw [outsAt0_C m c t h0 h1]
  dsimp only
  refine (congrFun (output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk m c t) (wBlk m c t) (sBlk m c t) (bBlk m c t) ((outsAt0 m c (t.val - 1) (Nat.lt_of_le_of_lt (Nat.sub_le _ _) t.isLt)).2)) (ix2 p q)).trans ?_
  rw [add_bias_apply, accumulate_apply]

end Cert.KernelIdeal.Tile

end
-- ==== Proof.LibTiledSum.lean ====
/-
  A sum over a contraction axis of length 4096, accumulated tile by tile.

  The kernel contracts the axis in 16 tiles of 256 and keeps a running total; the reference contracts it in one sum.
  Over any commutative additive monoid (the extended reals are one) the running total after tile `a` is the sum of
  the first `256 * (a + 1)` terms, so after the last tile it is the whole sum. No finiteness is needed: only
  associativity and commutativity of addition are used.
-/
import Mathlib.Algebra.BigOperators.Fin
import Mathlib.Algebra.BigOperators.Intervals

open scoped BigOperators

namespace Cert.TiledSum

variable {M : Type*} [AddCommMonoid M]

/-- A family indexed by `Fin n`, continued by zero to every natural number. -/
def ext0 {n : ℕ} (f : Fin n → M) (k : ℕ) : M := if h : k < n then f ⟨k, h⟩ else 0

theorem ext0_of_lt {n : ℕ} (f : Fin n → M) {k : ℕ} (h : k < n) : ext0 f k = f ⟨k, h⟩ := dif_pos h

/-- The whole sum is the sum of the continued family over the first `n` naturals. -/
theorem sum_univ_eq_range {n : ℕ} (f : Fin n → M) : ∑ k : Fin n, f k = ∑ k ∈ Finset.range n, ext0 f k := by
  rw [← Fin.sum_univ_eq_sum_range (ext0 f) n]
  exact Finset.sum_congr rfl fun k _ => (ext0_of_lt f k.isLt).symm

/-- One more tile: the first `T * (a + 1)` terms are the first `T * a` terms and then tile `a`. -/
theorem prefix_succ (g : ℕ → M) (T a : ℕ) :
    ∑ k ∈ Finset.range (T * (a + 1)), g k = ∑ k ∈ Finset.range (T * a), g k + ∑ j : Fin T, g (T * a + j.val) := by
  rw [Nat.mul_succ, Finset.sum_range_add, Fin.sum_univ_eq_sum_range (fun j => g (T * a + j)) T]

/-- The running total takes in tile `a`: if it held the first `T * a` terms and the tile's terms are the family's at
    `T * a + j`, it now holds the first `T * (a + 1)` terms. -/
theorem step {n : ℕ} (f : Fin n → M) (T a : ℕ) (hn : T * (a + 1) ≤ n) (t : Fin T → M)
    (ht : ∀ j : Fin T, t j = f ⟨T * a + j.val, by
      have := j.isLt; have h2 : T * (a + 1) = T * a + T := Nat.mul_succ T a; omega⟩) :
    ∑ k ∈ Finset.range (T * a), ext0 f k + ∑ j : Fin T, t j = ∑ k ∈ Finset.range (T * (a + 1)), ext0 f k := by
  rw [prefix_succ]
  congr 1
  exact Finset.sum_congr rfl fun j _ => by
    rw [ht j, ext0_of_lt]

/-- The first tile, taken into a total that starts at zero. -/
theorem first {n : ℕ} (f : Fin n → M) (T : ℕ) (hn : T * 1 ≤ n) (t : Fin T → M)
    (ht : ∀ j : Fin T, t j = f ⟨j.val, by have := j.isLt; omega⟩) :
    0 + ∑ j : Fin T, t j = ∑ k ∈ Finset.range (T * 1), ext0 f k := by
  have h := step f T 0 hn t (fun j => by rw [ht j]; exact congrArg f (Fin.ext (by simp)))
  rw [Nat.mul_zero, Finset.range_zero, Finset.sum_empty] at h
  exact h

end Cert.TiledSum
-- ==== Proof.Invariant.lean ====
/-
  The running total is a prefix of the contraction.

  Fix a row block mi, a column block ni and an entry (p, q) of the [2048, 1024] block. The 16 grid points
  (mi·4 + ni)·16 + a, a = 0 … 15, visit the 16 tiles of the contracted axis in order, and after the point of tile a
  the running total at (p, q) is the sum of the first 256·(a + 1) terms x(r, k) · (w(n, k) · s(n, k)) of output row
  r = 2048·mi + p and column n = 1024·ni + q: by induction on a, one tile at a time. After the last tile this is the
  whole contraction, and the output block receives it plus the bias.
-/
import proofs.«123864_j11441792877192_1_alg».proof.Proof.Steps
import proofs.«123864_j11441792877192_1_alg».proof.Proof.LibTiledSum

set_option maxRecDepth 16384

noncomputable section

open Idealize.ShloMosaic Idealize.ShloMosaic.TcCoe Idealize.SL.Sem Idealize.ShloMosaic.ValueIdx
open scoped BigOperators

namespace Cert.KernelIdeal.Tile

open Cert.KernelIdeal Cert.KernelIdeal.Gen Cert.BlockScaledLinear Cert.TiledSum

variable (m : (ℓ : Loc nD τ sig) → Buf (Elt Ideal) ℓ)

/-- The terms of the contraction for entry (p, q) of block (mi, ni). -/
abbrev fam (c : Dev nD) (mi ni : Fin 4) (p : Fin 2048) (q : Fin 1024) : Fin 4096 → EReal :=
  term (xArr m c) (wArr m c) (sArr m c) (rowIdx mi p) (colIdx ni q)

/-- A tile's product term, read through the point's blocks, is the contraction's term at that position. -/
theorem tile_term (c : Dev nD) (t : Fin cfg0.N) (mi ni : Fin 4) (a : Fin 16) (ht : t.val = (mi.val * 4 + ni.val) * 16 + a.val)
    (p : Fin 2048) (q : Fin 1024) (j : Fin 256) :
    xBlk m c t (ix2 p j) * (wBlk m c t (ix2 q j) * sBlk m c t (ix2 q j)) = fam m c mi ni p q (posIdx a j) := by
  rw [xBlk_apply m c t mi ni a ht, wBlk_apply m c t mi ni a ht, sBlk_apply m c t mi ni a ht]
  rfl

/-- After the point of tile `a` the running total holds the first `256 · (a + 1)` terms. -/
theorem total_eq (c : Dev nD) (mi ni : Fin 4) (p : Fin 2048) (q : Fin 1024) :
    ∀ (a : ℕ) (ha : a < 16) (t : Fin cfg0.N), t.val = (mi.val * 4 + ni.val) * 16 + a →
      (outsAt0 m c t.val t.isLt).2 (ix2 p q) = ∑ k ∈ Finset.range (256 * (a + 1)), ext0 (fam m c mi ni p q) k
  | 0, ha, t, ht => by
    refine (total_at_first m c t (by omega) p q).trans ?_
    exact first (fam m c mi ni p q) 256 (by omega) (fun j : Fin 256 => xBlk m c t (ix2 p j) * (wBlk m c t (ix2 q j) * sBlk m c t (ix2 q j)))
      (fun j => (tile_term m c t mi ni ⟨0, ha⟩ ht p q j).trans (congrArg (fam m c mi ni p q) (Fin.ext (by
        show 256 * 0 + j.val = j.val
        omega))))
  | a + 1, ha, t, ht => by
    have hlt := t.isLt
    have ih := total_eq c mi ni p q a (by omega) ⟨t.val - 1, by omega⟩ (by show t.val - 1 = _; omega)
    refine (total_at_next m c t (by omega) p q).trans ?_
    refine (congrArg (· + ∑ j : Fin 256, xBlk m c t (ix2 p j) * (wBlk m c t (ix2 q j) * sBlk m c t (ix2 q j))) ih).trans ?_
    exact step (fam m c mi ni p q) 256 (a + 1) (by omega) (fun j : Fin 256 => xBlk m c t (ix2 p j) * (wBlk m c t (ix2 q j) * sBlk m c t (ix2 q j)))
      (fun j => tile_term m c t mi ni ⟨a + 1, ha⟩ ht p q j)

/-- At the point of the last tile the output block receives the whole contraction plus the bias. -/
theorem output_eq (c : Dev nD) (t : Fin cfg0.N) (mi ni : Fin 4) (ht : t.val = (mi.val * 4 + ni.val) * 16 + 15)
    (p : Fin 2048) (q : Fin 1024) :
    (outsAt0 m c t.val t.isLt).1 (ix2 p q)
      = linearRows (xArr m c) (wArr m c) (sArr m c) (bArr m c) (ix2 (rowIdx mi p) (colIdx ni q)) := by
  have hlt := t.isLt
  have ih : (outsAt0 m c (t.val - 1) (Nat.lt_of_le_of_lt (Nat.sub_le _ _) t.isLt)).2 (ix2 p q)
      = ∑ k ∈ Finset.range (256 * 15), ext0 (fam m c mi ni p q) k :=
    total_eq m c mi ni p q 14 (by omega) ⟨t.val - 1, by omega⟩ (by show t.val - 1 = _; omega)
  have hs := step (fam m c mi ni p q) 256 15 (by omega) (fun j : Fin 256 => xBlk m c t (ix2 p j) * (wBlk m c t (ix2 q j) * sBlk m c t (ix2 q j)))
    (fun j => tile_term m c t mi ni ⟨15, by omega⟩ ht p q j)
  refine (output_at_last m c t (by omega) p q).trans ?_
  rw [ih, hs, bBlk_apply m c t mi ni ⟨15, by omega⟩ ht q]
  show _ = (∑ k : Fin 4096, fam m c mi ni p q k) + bArr m c (ix2 (0 : Fin 1) (colIdx ni q))
  rw [sum_univ_eq_range]

end Cert.KernelIdeal.Tile

end
-- ==== Proof.Result.lean ====
/-
  The tiled computation's result array, and the program's result.

  The output array [8192, 4096] is written one [2048, 1024] block at a time, each block once, by the point of the last
  tile for that block; the 16 blocks tile the array, so after the run every entry (r, n) holds the whole contraction
  for row r and column n plus the bias. The program then views the array as [2, 4096, 4096]; entry (b, s, n) of the
  view is entry (4096·b + s, n) of the array, which is the block-scaled linear layer of the four arguments at (b, s, n).
-/
import proofs.«123864_j11441792877192_1_alg».proof.Proof.Invariant

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Tile

open Cert.KernelIdeal Cert.KernelIdeal.Gen Cert.BlockScaledLinear

variable (m : (ℓ : Loc nD τ sig) → Buf (Elt Ideal) ℓ) (ρ : Dev nD → PrngReg)

/-- The layer over the flattened rows, as contents of the output array. -/
abbrev rowsResult (c : Dev nD) : Buf (Elt Ideal) ((c : Thread nD τ).loc main_v5) :=
  linearRows (xArr m c) (wArr m c) (sArr m c) (bArr m c)

/-- What a point of the last tile writes back is its block of the layer over the flattened rows. -/
theorem flushed_eq (c : Dev nD) (t : Fin cfg0.N) (hf : (cfg0.win 4).flush t = true) :
    (dats m 0 c).flushed 4 t = ((cfg0.win 4).blk t).view.read (Elt Ideal) (rowsResult m c) := by
  have h15 : t.val % 16 = 15 := (flush0_4 t).mp hf
  have hN : cfg0.N = 256 := N_0
  have hlt := t.isLt
  obtain ⟨mi, ni, ht⟩ : ∃ (mi ni : Fin 4), t.val = (mi.val * 4 + ni.val) * 16 + 15 :=
    ⟨⟨t.val / 64, by omega⟩, ⟨t.val / 16 % 4, by omega⟩, by show t.val = (t.val / 64 * 4 + t.val / 16 % 4) * 16 + 15; omega⟩
  obtain ⟨-, -, -, -, -, -, -, -, e0, e1⟩ := block_index t
  show (cfg0.win 4).cut (grid0.coords t) ((dats m 0 c).after 4 t) = _
  rw [after0_4]
  funext y
  rw [View.read_apply]
  obtain ⟨p, q, rfl⟩ : ∃ (p : Fin 2048) (q : Fin 1024), y = ix2 p q := ⟨y 0, y 1, eq_ix2 y⟩
  show (outsAt0 m c t.val t.isLt).1 (ix2 p q) = rowsResult m c (((cfg0.win 4).blk t).view.emb (ix2 p q))
  rw [output_eq m c t mi ni ht p q]
  refine congrArg (rowsResult m c) ?_
  funext d; apply Fin.ext
  have := mi.isLt; have := ni.isLt
  match d with
  | ⟨0, _⟩ => show 2048 * mi.val + p.val = win0_4.index t (0 : Fin 2) * 2048 + 1 * p.val; rw [e0]; omega
  | ⟨1, _⟩ => show 1024 * ni.val + q.val = win0_4.index t (1 : Fin 2) * 1024 + 1 * q.val; rw [e1]; omega

/-- Every entry of the output array lies in the block of some point of a last tile. -/
theorem covered (c : Dev nD) (i : S8192x4096.Idx) :
    ∃ t : Fin cfg0.N, (cfg0.win 4).flush t = true ∧ i ∈ ((cfg0.win 4).blk t).view.set := by
  have hN : cfg0.N = 256 := N_0
  have h0 : (i 0).val < 8192 := (i 0).isLt
  have h1 : (i 1).val < 4096 := (i 1).isLt
  obtain ⟨t, ht⟩ : ∃ t : Fin cfg0.N, t.val = ((i 0).val / 2048 * 4 + (i 1).val / 1024) * 16 + 15 :=
    ⟨⟨((i 0).val / 2048 * 4 + (i 1).val / 1024) * 16 + 15, by omega⟩, rfl⟩
  refine ⟨t, (flush0_4 t).mpr (by omega), ?_⟩
  obtain ⟨-, -, -, -, -, -, -, -, e0, e1⟩ := block_index t
  show i ∈ ((View.whole main_v5).slice (win0_4.rect t)).set
  rw [View.set_slice_whole, Rect.mem_set_unit]
  intro d
  match d with
  | ⟨0, _⟩ =>
    show win0_4.index t (0 : Fin 2) * 2048 ≤ (i 0).val ∧ (i 0).val < win0_4.index t (0 : Fin 2) * 2048 + 2048
    rw [e0]
    omega
  | ⟨1, _⟩ =>
    show win0_4.index t (1 : Fin 2) * 1024 ≤ (i 1).val ∧ (i 1).val < win0_4.index t (1 : Fin 2) * 1024 + 1024
    rw [e1]
    omega

/-- After the run the output array holds the layer over the flattened rows. -/
theorem final_rows (c : Dev nD) : (dats m 0 c).arrAt 4 cfg0.N = rowsResult m c :=
  (dats m 0 c).arrAt_eq_of_cover 4 (rowsResult m c) (flushed_eq m c) (covered c)

/-- The view of the output array as [2, 4096, 4096] is the block-scaled linear layer of the four arguments. -/
theorem view_eq (c : Dev nD) :
    shapeCast S2x4096x4096 (rowsResult m c) shapeCasts_S8192x4096_S2x4096x4096
      = blockScaledLinear (m ((c : Thread nD τ).loc main_arg0)) (m ((c : Thread nD τ).loc main_arg1))
          (m ((c : Thread nD τ).loc main_arg2)) (m ((c : Thread nD τ).loc main_arg3)) := by
  funext i
  obtain ⟨b, s, n, rfl⟩ : ∃ (b : Fin 2) (s n : Fin 4096), i = ix3 b s n := ⟨i 0, i 1, i 2, eq_ix3 i⟩
  refine (shapeCast_apply _ shapeCasts_S8192x4096_S2x4096x4096 (ix3 b s n) (ix2 (flatRow b s) n)
    (by rewrite [Shape.rowMajor_val_three, Shape.rowMajor_val_two]
        show (b.val * 4096 + s.val) * 4096 + n.val = (b.val * 4096 + s.val) * 4096 + n.val
        rfl)).trans ?_
  have hw : wArr m c = m ((c : Thread nD τ).loc main_arg1) := wArr_eq m c
  rw [← hw]
  exact linearRows_eq (xArr m c) (wArr m c) (sArr m c) (bArr m c) _ _ _
    (fun bb s k => xArr_apply m c bb s k) (fun n k => sArr_apply m c n k) (fun n => bArr_apply m c n) b s n

/-- The program's result after the view that follows the tiled computation. -/
theorem tail_eq (c : Dev nD) :
    Pipeline.afterTail₀ cfgs (dats m) 0 (V0 m) [hostOps1] c main_v6
      = blockScaledLinear (m ((c : Thread nD τ).loc main_arg0)) (m ((c : Thread nD τ).loc main_arg1))
          (m ((c : Thread nD τ).loc main_arg2)) (m ((c : Thread nD τ).loc main_arg3)) := by
  refine Eq.trans ?_ (view_eq m c)
  unfold Pipeline.afterTail₀
  show StableHlo.after hostOps1 _ (Proc.devRef .tc main_v6) = _
  after_results
  rw [(Pipeline.withArrays_arr spec0 launch0.win.arr_inj c _ _ 4).trans (final_rows m c)]
  rfl

/-- Every run of the program ends with the result at the block-scaled linear layer of the arguments, the arguments
    unchanged. -/
theorem run : θ_run defs (onTc (τ := τ) (main (F := Ideal))) ⟨m, fun _ => 0, ρ⟩ fun r => ∀ c : Dev nD,
      r.2.mem ((c.tc : Thread nD τ).loc main_v6)
        = blockScaledLinear (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tile

end
-- ==== Proof.RefValue.lean ====
/-
  The reference computes the block-scaled linear layer.

  The reference views the stored weight as 131072 rows of 128, multiplies row r by scale r, views the product as
  [4096, 4096] again, contracts the activation's last axis with the weight's last axis and adds the bias along the
  last axis. Entry (n, k) of the weight is entry (32·n + k / 128, k mod 128) of the rows-of-128 view, so its scale is
  scale 32·n + k / 128, and the result at (b, s, n) is ∑ₖ x(b, s, k) · (wq(n, k) · scale(32·n + k / 128)) + bias(n).
-/
import proofs.«123864_j11441792877192_1_alg».proof.Proof.Gen.ReferenceIdeal.Read
import proofs.«123864_j11441792877192_1_alg».proof.Proof.Spec

noncomputable section

open Idealize.ShloMosaic Idealize.ShloMosaic.ValueIdx
open scoped BigOperators

namespace Cert.ReferenceIdeal.RefValue

open Cert.ReferenceIdeal Cert.ReferenceIdeal.Read Cert.BlockScaledLinear

theorem reference_eq (x0 : (⟨S2x4096x4096, .f32⟩ : BufTy).Contents (Elt Ideal)) (x1 : (⟨S4096x4096, .f32⟩ : BufTy).Contents (Elt Ideal))
    (x2 : (⟨S131072, .f32⟩ : BufTy).Contents (Elt Ideal)) (x3 : (⟨S4096, .f32⟩ : BufTy).Contents (Elt Ideal)) :
    val_main_v8 (F := Ideal) x0 x1 x2 x3 = blockScaledLinear x0 x1 x2 x3 := by
  funext i
  obtain ⟨b, s, n, rfl⟩ : ∃ (b : Fin 2) (s n : Fin 4096), i = ix3 b s n := ⟨i 0, i 1, i 2, eq_ix3 i⟩
  refine (val_main_v8_apply x0 x1 x2 x3 _).trans ?_
  show val_main_v5 (F := Ideal) x0 x1 x2 (ix3 b s n) + val_main_v7 (F := Ideal) x3 (ix3 b s n)
    = (∑ k : Fin 4096, x0 (ix3 b s k) * (x1 (ix2 n k) * x2 (ix1 (scaleIdx n k)))) + x3 (ix1 n)
  rw [val_main_v5_apply, val_main_v7_apply, val_main_v6_apply]
  have e3 : idx_main_v6 (idx_main_v7 (ix3 b s n)) = ix1 n := funext fun a => Fin.ext (by
    match a with
    | ⟨0, _⟩ => rfl)
  rw [e3]
  refine congrArg (· + x3 (ix1 n)) (Finset.sum_congr rfl fun k _ => ?_)
  have el : lidx_main_v5 (ix3 b s n) k = ix3 b s k := funext fun a => Fin.ext (by
    match a with
    | ⟨0, _⟩ => rfl
    | ⟨1, _⟩ => rfl
    | ⟨2, _⟩ => rfl)
  rw [el, val_main_v4_apply, val_main_v3_apply, val_main_v0_apply, val_main_v2_apply, val_main_v1_apply]
  have hn := n.isLt
  have hk := k.isLt
  have e0 : idx_main_v0 (idx_main_v4 (ridx_main_v5 (ix3 b s n) k)) = ix2 n k := funext fun a => Fin.ext (by
    match a with
    | ⟨0, _⟩ => show ((n.val * 4096 + k.val) / 128 * 128 + (n.val * 4096 + k.val) % 128) / 4096 = n.val; omega
    | ⟨1, _⟩ => show ((n.val * 4096 + k.val) / 128 * 128 + (n.val * 4096 + k.val) % 128) % 4096 = k.val; omega)
  have e1 : idx_main_v1 (idx_main_v2 (idx_main_v4 (ridx_main_v5 (ix3 b s n) k))) = ix1 (scaleIdx n k) := funext fun a => Fin.ext (by
    match a with
    | ⟨0, _⟩ => show (n.val * 4096 + k.val) / 128 = n.val * 32 + k.val / 128; omega)
  rw [e0, e1]
  rfl

end Cert.ReferenceIdeal.RefValue

end
-- ==== Proof.lean ====
/-
  A linear layer with a block-scaled weight: the tiled computation against the direct formula.

  Both programs compute, at (b, s, n), ∑ₖ x(b, s, k) · (wq(n, k) · scale(32·n + k / 128)) + bias(n) over the extended
  reals (Proof/Spec.lean). The reference does so in one contraction (Proof/RefValue.lean). The tiled computation
  walks a 4 × 4 × 16 grid — row blocks of 2048, column blocks of 1024, tiles of 256 along the contracted axis — and
  keeps, per output block, a running total that is cleared at the first tile, grows by the tile's partial
  contraction at every tile, and is written out with the bias at the last tile (Proof/Pieces.lean, Proof/Payload.lean,
  Proof/Steps.lean). The running total after tile a is the sum of the first 256·(a + 1) terms of the contraction
  (Proof/Invariant.lean, over Proof/LibTiledSum.lean), so the output holds the whole contraction plus the bias
  (Proof/Result.lean). Regrouping the sum into tiles uses only associativity and commutativity of addition, which hold
  on the extended reals without any finiteness assumption; the narrowings to bf16 are the identity there.
  The idealization rewrote nothing, so it is preserved trivially.
-/
import proofs.«123864_j11441792877192_1_alg».proof.Defs
import proofs.«123864_j11441792877192_1_alg».proof.Proof.Gen.Kernel
import proofs.«123864_j11441792877192_1_alg».proof.Proof.Gen.Kernel.Skeleton
import proofs.«123864_j11441792877192_1_alg».proof.Proof.Gen.Kernel.Launch
import proofs.«123864_j11441792877192_1_alg».proof.Proof.Gen.Kernel.Points
import proofs.«123864_j11441792877192_1_alg».proof.Proof.Gen.Kernel.Frame
import proofs.«123864_j11441792877192_1_alg».proof.Proof.Gen.KernelIdeal
import proofs.«123864_j11441792877192_1_alg».proof.Proof.Gen.KernelIdeal.Skeleton
import proofs.«123864_j11441792877192_1_alg».proof.Proof.Gen.KernelIdeal.Launch
import proofs.«123864_j11441792877192_1_alg».proof.Proof.Gen.KernelIdeal.Points
import proofs.«123864_j11441792877192_1_alg».proof.Proof.Gen.KernelIdeal.Frame
import proofs.«123864_j11441792877192_1_alg».proof.Proof.Gen.ReferenceIdeal
import proofs.«123864_j11441792877192_1_alg».proof.Proof.Gen.ReferenceIdeal.Run
import proofs.«123864_j11441792877192_1_alg».proof.Proof.Gen.ReferenceIdeal.Read
import proofs.«123864_j11441792877192_1_alg».proof.Proof.Gen.Pre_finite_inputs
import proofs.«123864_j11441792877192_1_alg».proof.Proof.Result
import proofs.«123864_j11441792877192_1_alg».proof.Proof.RefValue
import Idealize.ShloMosaic.Adequacy
import Idealize.ShloMosaic.Init

noncomputable section

namespace Cert.Proof

open Idealize.ShloMosaic Idealize.SL.Sem

/-- The tiled program at the word level runs and leaves its arguments unchanged. -/
theorem frame_kernel : Cert.frame_Kernel :=
  fun m ρ _ => Cert.Kernel.Gen.frame m ρ

/-- The same over the extended reals. -/
theorem frame_kernel_ideal : Cert.frame_KernelIdeal :=
  fun m ρ _ => Cert.KernelIdeal.Gen.frame m ρ

/-- The reference runs and leaves its arguments unchanged: its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both programs end at the block-scaled linear layer of arguments that agree. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
